-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S4096x512 : Shape := ⟨2, ![4096, 512]⟩
abbrev S256x16384 : Shape := ⟨2, ![256, 16384]⟩
abbrev S256x512 : Shape := ⟨2, ![256, 512]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S256x16384 : S_.BroadcastsInDim S256x16384 (![] : Fin 0 → Fin S256x16384.rank)
  reducesTo_S256x16384_S_d0_1 : S256x16384.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S256x16384 1) : IVec S_ 1 :=
  let main_c_5 : IVec S_ 1 := constantI S_ 1 1#1
  let main_v17 : IVec S_ 1 := (fun x v => Host.reduce IntOp.andi x v reducesTo_S256x16384_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S4096x16384 .f32) (main_arg1 : FVec F S4096x16384 .f32) (main_arg2 : FVec F S4096x512 .f32) (main_arg3 : FVec F S256x16384 .f32) (main_arg4 : FVec F S256x512 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S256x16384 .f32 := Host.absf main_arg3
  let main_cst_4 : FVec F S_ .f32 := constant S_ .f32 0x7F800000#32
  let main_v15 : FVec F S256x16384 .f32 := broadcastInDim S256x16384 ![] bcast_S_S256x16384 main_cst_4
  let main_v16 : IVec S256x16384 1 := cmpf .olt main_v14 main_v15
  fn_part1 (F := F) main_arg4 main_v13 main_v16
-- ==== Kernel.lean ====
abbrev S4096x16384 : Shape := ⟨2, ![4096, 16384]⟩
abbrev S4096x512 : Shape := ⟨2, ![4096, 512]⟩
abbrev S256x16384 : Shape := ⟨2, ![256, 16384]⟩
abbrev S256x512 : Shape := ⟨2, ![256, 512]⟩
abbrev S4096x1 : Shape := ⟨2, ![4096, 1]⟩
abbrev S512x2048 : Shape := ⟨2, ![512, 2048]⟩
abbrev S512x512 : Shape := ⟨2, ![512, 512]⟩
abbrev S256x2048 : Shape := ⟨2, ![256, 2048]⟩
abbrev S512x1 : Shape := ⟨2, ![512, 1]⟩
abbrev S512x256 : Shape := ⟨2, ![512, 256]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x512, .f32⟩
  | .hbm, ⟨3, _⟩ => ⟨S256x16384, .f32⟩
  | .hbm, ⟨4, _⟩ => ⟨S256x512, .f32⟩
  | .hbm, ⟨5, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S256x2048, .f32⟩
  | .local _ .vmem, ⟨7, _⟩ => ⟨S256x2048, .f32⟩
  | .local _ .vmem, ⟨8, _⟩ => ⟨S256x512, .f32⟩
  | .local _ .vmem, ⟨9, _⟩ => ⟨S512x1, .f32⟩
  | .local _ .vmem, ⟨10, _⟩ => ⟨S512x1, .f32⟩
  | .local _ .vmem, ⟨11, _⟩ => ⟨S512x256, .f32⟩
  | .local _ .vmem, ⟨12, _⟩ => ⟨S512x256, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S512x2048_S256x2048_S512x256_1_1_0_0_n_n_wf : DotDims.WF S512x2048 S256x2048 S512x256 [1] [1] [0] [0] [] []
  dot_S512x512_S256x512_S512x256_1_1_0_0_n_n_wf : DotDims.WF S512x512 S256x512 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x16384.size a
  hwx0_0 : ∀ i : grid0.Coords, EltTy.bits .f32 = 32 ∨ (Rect.block (s := S4096x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x16384.size a
  hwx0_1 : ∀ i : grid0.Coords, EltTy.bits .f32 = 32 ∨ (Rect.block (s := S4096x16384) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x16384.size a
  hwx0_3 : ∀ i : grid0.Coords, EltTy.bits .f32 = 32 ∨ (Rect.block (s := S256x16384) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096x512 : Shape := ⟨2, ![4096, 512]⟩
abbrev S256x16384 : Shape := ⟨2, ![256, 16384]⟩
abbrev S256x512 : Shape := ⟨2, ![256, 512]⟩
abbrev S16384x256 : Shape := ⟨2, ![16384, 256]⟩
abbrev S4096x256 : Shape := ⟨2, ![4096, 256]⟩
abbrev S512x256 : Shape := ⟨2, ![512, 256]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x512, .f32⟩
  | .hbm, ⟨3, _⟩ => ⟨S256x16384, .f32⟩
  | .hbm, ⟨4, _⟩ => ⟨S256x512, .f32⟩
  | .hbm, ⟨5, _⟩ => ⟨S16384x256, .f32⟩
  | .hbm, ⟨6, _⟩ => ⟨S4096x256, .f32⟩
  | .hbm, ⟨7, _⟩ => ⟨S16384x256, .f32⟩
  | .hbm, ⟨8, _⟩ => ⟨S4096x256, .f32⟩
  | .hbm, ⟨9, _⟩ => ⟨S512x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  transposes_S256x16384_S16384x256_1_0 : S256x16384.Transposes [1, 0] S16384x256
  transposes_S256x512_S512x256_1_0 : S256x512.Transposes [1, 0] S512x256
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x16384_S16384x256_S4096x256_1_0_0_1_n_n_wf : DotDims.WF S4096x16384 S16384x256 S4096x256 [1] [0] [0] [1] [] []
  dot_S4096x512_S512x256_S4096x256_1_0_0_1_n_n_wf : DotDims.WF S4096x512 S512x256 S4096x256 [1] [0] [0] [1] [] []

variable [Facts₀]

def dot_S4096x16384_S16384x256_S4096x256_1_0_0_1_n_n : DotDims S4096x16384 S16384x256 S4096x256 where
  lhsContracting := [1]
  rhsContracting := [0]
  lhsNonContracting := [0]
  rhsNonContracting := [1]
  lhsBatch := []
  rhsBatch := []
  wf := dot_S4096x16384_S16384x256_S4096x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.Score.lean ====
/-
  What both programs compute, and the one law that joins their two arrangements.

  Inputs: x, y of 4096 rows by 16384 columns, r of 4096 by 512, W_ent of 256 by 16384, W_rel of 256 by 512. For a row i and
  an embedding coordinate d,
      ea i d = sum over K of x (i, K) * W_ent (d, K)         eb i d = sum over K of y (i, K) * W_ent (d, K)
      er i d = sum over k of r (i, k) * W_rel (d, k)
      score i = sum over d of (er i d * ea i d) * eb i d
      result (i, 0) = 1 / (1 + exp (- score i)).
  The products against W_ent contract 16384 columns. One program takes that sum whole; the other takes the columns in
  8 consecutive blocks of 2048, starting from zero and adding one block's sum at a time. Addition of extended reals is
  commutative and associative, so the two agree for all inputs, the infinities included: nothing is distributed or
  cancelled, and no finiteness is used.
-/
import Idealize.ShloMosaic.PureOps.Ideal
import Idealize.ShloMosaic.Lib.ValueIdx

noncomputable section

namespace Cert.Score

open Idealize.ShloMosaic Idealize.ShloMosaic.ValueIdx
open scoped BigOperators

/-! ## Columns in blocks -/

/-- Column `k` of block `e`, among 16384 = 8 * 2048 columns. -/
def col (e : Fin 8) (k : Fin 2048) : Fin 16384 :=
  ⟨2048 * e.val + k.val, by have := e.isLt; have := k.isLt; omega⟩

/-- Row `p` of row tile `n`, among 4096 = 8 * 512 rows. -/
def row (n : Fin 8) (p : Fin 512) : Fin 4096 :=
  ⟨512 * n.val + p.val, by have := n.isLt; have := p.isLt; omega⟩

/-- A sum over the 16384 columns is the sum over the 8 blocks of each block's sum over its 2048 columns. -/
theorem sum_cols (g : Fin 16384 → EReal) : ∑ K, g K = ∑ e : Fin 8, ∑ k : Fin 2048, g (col e k) := by
  have h : ∑ K : Fin (8 * 2048), g K = ∑ p : Fin 8 × Fin 2048, g (finProdFinEquiv (m := 8) (n := 2048) p) :=
    (Equiv.sum_comp (finProdFinEquiv (m := 8) (n := 2048)) g).symm
  rw [Fintype.sum_prod_type] at h
  refine h.trans (Finset.sum_congr rfl fun e _ => Finset.sum_congr rfl fun k _ => congrArg g (Fin.ext ?_))
  show k.val + 2048 * e.val = 2048 * e.val + k.val
  omega

/-! ## Adding the blocks one at a time -/

/-- The sum of the block sums `B 0`, …, `B e`. -/
def upTo (B : Fin 8 → EReal) (e : ℕ) (he : e < 8) : EReal :=
  ∑ e' : Fin (e + 1), B ⟨e'.val, by have := e'.isLt; omega⟩

theorem upTo_zero (B : Fin 8 → EReal) (h : 0 < 8) : upTo B 0 h = B ⟨0, h⟩ := by
  unfold upTo
  rw [Fin.sum_univ_one]
  rfl

theorem upTo_succ (B : Fin 8 → EReal) (e : ℕ) (he : e + 1 < 8) :
    upTo B (e + 1) he = upTo B e (by omega) + B ⟨e + 1, he⟩ := by
  unfold upTo
  rw [Fin.sum_univ_castSucc]
  rfl

theorem upTo_last (B : Fin 8 → EReal) (h : 7 < 8) : upTo B 7 h = ∑ e : Fin 8, B e := rfl

/-! ## The function -/

/-- Row `i` of `a` against row `d` of `b`: the sum over the shared axis of the products. -/
def dotRow {R D K : Nat} (a : (⟨2, ![R, K]⟩ : Shape).Idx → EReal) (b : (⟨2, ![D, K]⟩ : Shape).Idx → EReal)
    (i : Fin R) (d : Fin D) : EReal :=
  ∑ k : Fin K, a (ix2 i k) * b (ix2 d k)

/-- Block `e` of that sum, for 16384 columns. -/
def dotBlock {R D : Nat} (a : (⟨2, ![R, 16384]⟩ : Shape).Idx → EReal) (b : (⟨2, ![D, 16384]⟩ : Shape).Idx → EReal)
    (i : Fin R) (d : Fin D) (e : Fin 8) : EReal :=
  ∑ k : Fin 2048, a (ix2 i (col e k)) * b (ix2 d (col e k))

/-- The whole contraction is the sum of its 8 blocks. -/
theorem dotRow_blocks {R D : Nat} (a : (⟨2, ![R, 16384]⟩ : Shape).Idx → EReal) (b : (⟨2, ![D, 16384]⟩ : Shape).Idx → EReal)
    (i : Fin R) (d : Fin D) : dotRow a b i d = ∑ e : Fin 8, dotBlock a b i d e :=
  sum_cols fun K => a (ix2 i K) * b (ix2 d K)

/-- Blocks `0`, …, `e` of the contraction, for the rows of tile `q`: what the accumulator of that tile holds after step `e`. -/
def partialDot (a : (⟨2, ![4096, 16384]⟩ : Shape).Idx → EReal) (b : (⟨2, ![256, 16384]⟩ : Shape).Idx → EReal)
    (q : ℕ) (hq : q < 8) (e : ℕ) (he : e < 8) : (⟨2, ![512, 256]⟩ : Shape).Idx → EReal :=
  fun j => upTo (dotBlock a b (row ⟨q, hq⟩ (j 0)) (j 1)) e he

/-- The same tile and step, however they are written. -/
theorem partialDot_congr (a : (⟨2, ![4096, 16384]⟩ : Shape).Idx → EReal) (b : (⟨2, ![256, 16384]⟩ : Shape).Idx → EReal)
    {q q' e e' : ℕ} (hq : q < 8) (hq' : q' < 8) (he : e < 8) (he' : e' < 8) (h1 : q = q') (h2 : e = e') :
    partialDot a b q hq e he = partialDot a b q' hq' e' he' := by
  subst h1; subst h2; rfl

/-- After the first step of a tile the accumulator holds block 0. -/
theorem partialDot_first (a : (⟨2, ![4096, 16384]⟩ : Shape).Idx → EReal) (b : (⟨2, ![256, 16384]⟩ : Shape).Idx → EReal)
    (q : ℕ) (hq : q < 8) (e : ℕ) (he : e < 8) (h : e = 0) (p : Fin 512) (d : Fin 256) :
    partialDot a b q hq e he (ix2 p d) = dotBlock a b (row ⟨q, hq⟩ p) d ⟨e, he⟩ := by
  subst h
  exact upTo_zero _ he

/-- After a later step it holds what it held after the step before, plus that step's block. -/
theorem partialDot_next (a : (⟨2, ![4096, 16384]⟩ : Shape).Idx → EReal) (b : (⟨2, ![256, 16384]⟩ : Shape).Idx → EReal)
    (q : ℕ) (hq : q < 8) (e : ℕ) (he : e < 8) (h : e ≠ 0) (p : Fin 512) (d : Fin 256) :
    partialDot a b q hq e he (ix2 p d)
      = partialDot a b q hq (e - 1) (by omega) (ix2 p d) + dotBlock a b (row ⟨q, hq⟩ p) d ⟨e, he⟩ := by
  obtain ⟨e', rfl⟩ : ∃ e', e = e' + 1 := ⟨e - 1, by omega⟩
  exact upTo_succ _ e' he

/-- After the last step the accumulator holds the whole contraction. -/
theorem partialDot_last (a : (⟨2, ![4096, 16384]⟩ : Shape).Idx → EReal) (b : (⟨2, ![256, 16384]⟩ : Shape).Idx → EReal)
    (q : ℕ) (hq : q < 8) (e : ℕ) (he : e < 8) (h : e = 7) (p : Fin 512) (d : Fin 256) :
    partialDot a b q hq e he (ix2 p d) = dotRow a b (row ⟨q, hq⟩ p) d := by
  subst h
  show upTo (dotBlock a b (row ⟨q, hq⟩ p) d) 7 he = _
  rw [upTo_last, dotRow_blocks]

/-- The score of row `i`. -/
def score (x y : (⟨2, ![4096, 16384]⟩ : Shape).Idx → EReal) (r : (⟨2, ![4096, 512]⟩ : Shape).Idx → EReal)
    (we : (⟨2, ![256, 16384]⟩ : Shape).Idx → EReal) (wr : (⟨2, ![256, 512]⟩ : Shape).Idx → EReal) (i : Fin 4096) : EReal :=
  ∑ d : Fin 256, (dotRow r wr i d * dotRow x we i d) * dotRow y we i d

/-- The logistic function as both programs spell it: `1 / (1 + exp (- s))`, the two ones the same binary word. -/
def logisticFn (s : EReal) : EReal :=
  Ideal.div (Ideal.ofBits .f32 0x3F800000#32) (Ideal.ofBits .f32 0x3F800000#32 + Ideal.exp (-s))

/-- The result array: the logistic function of each row's score. -/
def result (x y : (⟨2, ![4096, 16384]⟩ : Shape).Idx → EReal) (r : (⟨2, ![4096, 512]⟩ : Shape).Idx → EReal)
    (we : (⟨2, ![256, 16384]⟩ : Shape).Idx → EReal) (wr : (⟨2, ![256, 512]⟩ : Shape).Idx → EReal) :
    (⟨2, ![4096, 1]⟩ : Shape).Idx → EReal :=
  fun j => logisticFn (score x y r we wr (j 0))

end Cert.Score

end
-- ==== Proof.Blocks.lean ====
/-
  Where each window's block sits in its array.

  The grid has 64 points; point t = 8 q + e is step e of row tile q. At that point
    the x and y windows hold rows 512 q .. 512 q + 511, columns 2048 e .. 2048 e + 2047 of x and y;
    the r window holds the same rows of r, all 512 columns;
    the W_ent window holds all 256 rows, columns 2048 e .. 2048 e + 2047 of W_ent;
    the W_rel window holds W_rel whole;
    the output window is rows 512 q .. 512 q + 511 of the one output column.
  Each window's block index is read off the printed index map, once, over the 64 points.
-/
import proofs.«170534_j62843961475630_1_alg».proof.Proof.Gen.KernelIdeal.Frame
import proofs.«170534_j62843961475630_1_alg».proof.Proof.Score
import Idealize.ShloMosaic.Lib.ValueIdx
import Idealize.ShloMosaic.Lib.Pipeline.Value

noncomputable section

namespace Cert.KernelIdeal.Blocks

open Cert.KernelIdeal Cert.KernelIdeal.Gen Cert.Score
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The argument arrays and the blocks, at their literal shapes -/

abbrev xarr (c : Dev nD) : Vec F S4096x16384 .f32 := V m c main_arg0
abbrev yarr (c : Dev nD) : Vec F S4096x16384 .f32 := V m c main_arg1
abbrev rarr (c : Dev nD) : Vec F S4096x512 .f32 := V m c main_arg2
abbrev wearr (c : Dev nD) : Vec F S256x16384 .f32 := V m c main_arg3
abbrev wrarr (c : Dev nD) : Vec F S256x512 .f32 := V m c main_arg4

abbrev xblk (c : Dev nD) (t : Fin cfg0.N) : Vec F S512x2048 .f32 := iblk m c 0 t
abbrev yblk (c : Dev nD) (t : Fin cfg0.N) : Vec F S512x2048 .f32 := iblk m c 1 t
abbrev rblk (c : Dev nD) (t : Fin cfg0.N) : Vec F S512x512 .f32 := iblk m c 2 t
abbrev weblk (c : Dev nD) (t : Fin cfg0.N) : Vec F S256x2048 .f32 := iblk m c 3 t
abbrev wrblk (c : Dev nD) (t : Fin cfg0.N) : Vec F S256x512 .f32 := iblk m c 4 t

/-! ## Each window's block index at a point -/

theorem idx_x : ∀ t : Fin cfg0.N, win0_0.index t (0 : Fin 2) = t.val / 8 ∧ win0_0.index t (1 : Fin 2) = t.val % 8 :=
  (by decide +kernel : ∀ t : Fin grid0.N, _)
theorem idx_y : ∀ t : Fin cfg0.N, win0_1.index t (0 : Fin 2) = t.val / 8 ∧ win0_1.index t (1 : Fin 2) = t.val % 8 :=
  (by decide +kernel : ∀ t : Fin grid0.N, _)
theorem idx_r : ∀ t : Fin cfg0.N, win0_2.index t (0 : Fin 2) = t.val / 8 ∧ win0_2.index t (1 : Fin 2) = 0 :=
  (by decide +kernel : ∀ t : Fin grid0.N, _)
theorem idx_we : ∀ t : Fin cfg0.N, win0_3.index t (0 : Fin 2) = 0 ∧ win0_3.index t (1 : Fin 2) = t.val % 8 :=
  (by decide +kernel : ∀ t : Fin grid0.N, _)
theorem idx_wr : ∀ t : Fin cfg0.N, win0_4.index t (0 : Fin 2) = 0 ∧ win0_4.index t (1 : Fin 2) = 0 :=
  (by decide +kernel : ∀ t : Fin grid0.N, _)
theorem idx_out : ∀ t : Fin cfg0.N, win0_5.index t (0 : Fin 2) = t.val / 8 ∧ win0_5.index t (1 : Fin 2) = 0 :=
  (by decide +kernel : ∀ t : Fin grid0.N, _)

/-! ## The blocks as entries of the arrays -/

/-- Entry (p, k) of the x block is x at row 512 q + p, column 2048 e + k. -/
theorem xblk_apply (c : Dev nD) (t : Fin cfg0.N) (q e : Fin 8) (ht : t.val = 8 * q.val + e.val) (p : Fin 512) (k : Fin 2048) :
    xblk m c t (ix2 p k) = xarr m c (ix2 (row q p) (col e k)) := by
  have hi := idx_x t
  have hq := q.isLt
  have he := e.isLt
  show (iblk m c 0 t : Vec F S512x2048 .f32) (ix2 p k) = _
  unfold iblk
  rw [View.read_apply]
  show V m c main_arg0 _ = V m c main_arg0 _
  congr 1
  funext a
  apply Fin.ext
  match a with
  | ⟨0, _⟩ =>
    show win0_0.index t 0 * 512 + 1 * p.val = 512 * q.val + p.val
    rw [hi.1]; omega
  | ⟨1, _⟩ =>
    show win0_0.index t 1 * 2048 + 1 * k.val = 2048 * e.val + k.val
    rw [hi.2]; omega

/-- Entry (p, k) of the y block is y at row 512 q + p, column 2048 e + k. -/
theorem yblk_apply (c : Dev nD) (t : Fin cfg0.N) (q e : Fin 8) (ht : t.val = 8 * q.val + e.val) (p : Fin 512) (k : Fin 2048) :
    yblk m c t (ix2 p k) = yarr m c (ix2 (row q p) (col e k)) := by
  have hi := idx_y t
  have hq := q.isLt
  have he := e.isLt
  show (iblk m c 1 t : Vec F S512x2048 .f32) (ix2 p k) = _
  unfold iblk
  rw [View.read_apply]
  show V m c main_arg1 _ = V m c main_arg1 _
  congr 1
  funext a
  apply Fin.ext
  match a with
  | ⟨0, _⟩ =>
    show win0_1.index t 0 * 512 + 1 * p.val = 512 * q.val + p.val
    rw [hi.1]; omega
  | ⟨1, _⟩ =>
    show win0_1.index t 1 * 2048 + 1 * k.val = 2048 * e.val + k.val
    rw [hi.2]; omega

/-- Entry (p, k) of the r block is r at row 512 q + p, column k. -/
theorem rblk_apply (c : Dev nD) (t : Fin cfg0.N) (q e : Fin 8) (ht : t.val = 8 * q.val + e.val) (p : Fin 512) (k : Fin 512) :
    rblk m c t (ix2 p k) = rarr m c (ix2 (row q p) k) := by
  have hi := idx_r t
  have hq := q.isLt
  have he := e.isLt
  show (iblk m c 2 t : Vec F S512x512 .f32) (ix2 p k) = _
  unfold iblk
  rw [View.read_apply]
  show V m c main_arg2 _ = V m c main_arg2 _
  congr 1
  funext a
  apply Fin.ext
  match a with
  | ⟨0, _⟩ =>
    show win0_2.index t 0 * 512 + 1 * p.val = 512 * q.val + p.val
    rw [hi.1]; omega
  | ⟨1, _⟩ =>
    show win0_2.index t 1 * 512 + 1 * k.val = k.val
    rw [hi.2]; omega

/-- Entry (d, k) of the W_ent block is W_ent at row d, column 2048 e + k. -/
theorem weblk_apply (c : Dev nD) (t : Fin cfg0.N) (q e : Fin 8) (ht : t.val = 8 * q.val + e.val) (d : Fin 256) (k : Fin 2048) :
    weblk m c t (ix2 d k) = wearr m c (ix2 d (col e k)) := by
  have hi := idx_we t
  have hq := q.isLt
  have he := e.isLt
  show (iblk m c 3 t : Vec F S256x2048 .f32) (ix2 d k) = _
  unfold iblk
  rw [View.read_apply]
  show V m c main_arg3 _ = V m c main_arg3 _
  congr 1
  funext a
  apply Fin.ext
  match a with
  | ⟨0, _⟩ =>
    show win0_3.index t 0 * 256 + 1 * d.val = d.val
    rw [hi.1]; omega
  | ⟨1, _⟩ =>
    show win0_3.index t 1 * 2048 + 1 * k.val = 2048 * e.val + k.val
    rw [hi.2]; omega

/-- The W_rel block is W_rel. -/
theorem wrblk_apply (c : Dev nD) (t : Fin cfg0.N) (q e : Fin 8) (ht : t.val = 8 * q.val + e.val) (d : Fin 256) (k : Fin 512) :
    wrblk m c t (ix2 d k) = wrarr m c (ix2 d k) := by
  have hi := idx_wr t
  have hq := q.isLt
  have he := e.isLt
  show (iblk m c 4 t : Vec F S256x512 .f32) (ix2 d k) = _
  unfold iblk
  rw [View.read_apply]
  show V m c main_arg4 _ = V m c main_arg4 _
  congr 1
  funext a
  apply Fin.ext
  match a with
  | ⟨0, _⟩ =>
    show win0_4.index t 0 * 256 + 1 * d.val = d.val
    rw [hi.1]; omega
  | ⟨1, _⟩ =>
    show win0_4.index t 1 * 512 + 1 * k.val = k.val
    rw [hi.2]; omega

end Cert.KernelIdeal.Blocks

end
-- ==== Proof.Pieces.lean ====
/-
  What one run of the kernel body leaves behind, case by case, as arithmetic on what it loaded.

  The body reads each input block whole and stores each buffer whole, so what a buffer holds afterwards is the value of
  the last store into it, and a load that follows a store of the same buffer reads that store's value.
    first step of a row tile (the accumulators are reset):  ea := 0 + x_blk * w_blk^T,  eb := 0 + y_blk * w_blk^T;
    a middle step:                                           ea := ea + x_blk * w_blk^T,  eb := eb + y_blk * w_blk^T;
    last step: the same update, and the output block is the logistic function of the row sums of er * ea * eb
    taken over the UPDATED accumulators.
-/
import proofs.«170534_j62843961475630_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- Every access of the body starts at the origin of its buffer. -/
theorem hz2 : (![0, 0] : Fin 2 → ℕ) = fun _ => 0 := by
  funext a; fin_cases a <;> rfl

/-! ## First step of a row tile -/

/-- The first accumulator after a first step: the reset value plus the block's product. -/
theorem first_ea (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : cond0_0 i) (hc1 : ¬cond0_1 i) (x0 : Vec F S512x2048 .f32) (x1 : Vec F S512x2048 .f32) (x2 : Vec F S512x512 .f32) (x3 : Vec F S256x2048 .f32) (x4 : Vec F S256x512 .f32) :
    sout0_A_0 c i arg2 harg2 arg3 harg3 arg4 harg4 arg5 harg5 arg6 harg6 arg7 harg7 arg8 harg8 arg9 harg9 hc0 hc1 x0 x1 x2 x3 x4 = k0_pay4 x0 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

/-- The second accumulator after a first step. -/
theorem first_eb (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : cond0_0 i) (hc1 : ¬cond0_1 i) (x0 : Vec F S512x2048 .f32) (x1 : Vec F S512x2048 .f32) (x2 : Vec F S512x512 .f32) (x3 : Vec F S256x2048 .f32) (x4 : Vec F S256x512 .f32) :
    sout0_A_1 c i arg2 harg2 arg3 harg3 arg4 harg4 arg5 harg5 arg6 harg6 arg7 harg7 arg8 harg8 arg9 harg9 hc0 hc1 x0 x1 x2 x3 x4 = k0_pay5 x1 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

/-! ## A middle step -/

/-- The first accumulator after a middle step: what the step before left plus the block's product. -/
theorem mid_ea (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : ¬cond0_1 i) (x0 : Vec F S512x2048 .f32) (x1 : Vec F S512x2048 .f32) (x2 : Vec F S512x512 .f32) (x3 : Vec F S256x2048 .f32) (x4 : Vec F S256x512 .f32) (xs0 : Vec F S512x256 .f32) (xs1 : Vec F S512x256 .f32) :
    sout0_B_0 c i arg2 harg2 arg3 harg3 arg4 harg4 arg5 harg5 arg6 harg6 arg7 harg7 arg8 harg8 arg9 harg9 hc0 hc1 x0 x1 x2 x3 x4 xs0 xs1 = k0_pay4 x0 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

/-- The second accumulator after a middle step. -/
theorem mid_eb (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : ¬cond0_1 i) (x0 : Vec F S512x2048 .f32) (x1 : Vec F S512x2048 .f32) (x2 : Vec F S512x512 .f32) (x3 : Vec F S256x2048 .f32) (x4 : Vec F S256x512 .f32) (xs0 : Vec F S512x256 .f32) (xs1 : Vec F S512x256 .f32) :
    sout0_B_1 c i arg2 harg2 arg3 harg3 arg4 harg4 arg5 harg5 arg6 harg6 arg7 harg7 arg8 harg8 arg9 harg9 hc0 hc1 x0 x1 x2 x3 x4 xs0 xs1 = k0_pay5 x1 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

/-! ## The last step of a row tile -/

/-- The first accumulator after a last step. -/
theorem last_ea (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : cond0_1 i) (x0 : Vec F S512x2048 .f32) (x1 : Vec F S512x2048 .f32) (x2 : Vec F S512x512 .f32) (x3 : Vec F S256x2048 .f32) (x4 : Vec F S256x512 .f32) (xs0 : Vec F S512x256 .f32) (xs1 : Vec F S512x256 .f32) :
    sout0_C_0 c i arg2 harg2 arg3 harg3 arg4 harg4 arg5 harg5 arg6 harg6 arg7 harg7 arg8 harg8 arg9 harg9 hc0 hc1 x0 x1 x2 x3 x4 xs0 xs1 = k0_pay4 x0 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

/-- The second accumulator after a last step. -/
theorem last_eb (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : cond0_1 i) (x0 : Vec F S512x2048 .f32) (x1 : Vec F S512x2048 .f32) (x2 : Vec F S512x512 .f32) (x3 : Vec F S256x2048 .f32) (x4 : Vec F S256x512 .f32) (xs0 : Vec F S512x256 .f32) (xs1 : Vec F S512x256 .f32) :
    sout0_C_1 c i arg2 harg2 arg3 harg3 arg4 harg4 arg5 harg5 arg6 harg6 arg7 harg7 arg8 harg8 arg9 harg9 hc0 hc1 x0 x1 x2 x3 x4 xs0 xs1 = k0_pay5 x1 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

/-- The output block a last step stores: the epilogue of the r block, W_rel and the two UPDATED accumulators. -/
theorem last_out (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x512 .f32) (harg4 : arg4.IsWhole) (arg5 : Memref sig .tc .vmem S256x2048 .f32) (harg5 : arg5.IsWhole) (arg6 : Memref sig .tc .vmem S256x512 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : cond0_1 i) (x0 : Vec F S512x2048 .f32) (x1 : Vec F S512x2048 .f32) (x2 : Vec F S512x512 .f32) (x3 : Vec F S256x2048 .f32) (x4 : Vec F S256x512 .f32) (xs0 : Vec F S512x256 .f32) (xs1 : Vec F S512x256 .f32) :
    out0_C_5 c i arg2 harg2 arg3 harg3 arg4 harg4 arg5 harg5 arg6 harg6 arg7 harg7 arg8 harg8 arg9 harg9 hc0 hc1 x0 x1 x2 x3 x4 xs0 xs1 = k0_pay6 x2 x4 (k0_pay4 x0 x3 xs0) (k0_pay5 x1 x3 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S512x2048) hz2, View.ld_unit_zero (S := S256x2048) hz2, View.ld_unit_zero (S := S512x256) hz2, View.ld_unit_zero (S := S512x512) hz2, View.ld_unit_zero (S := S256x512) hz2, View.readCov_unit_zero (S := S512x256) _ hz2]

end Cert.KernelIdeal.Pieces

end
-- ==== Proof.Payload.lean ====
/-
  The body's arithmetic, one entry at a time, on extended reals.

  Both matrix products of the body contract the SECOND axis of both operands (a block times the transpose of a block),
  into a zero accumulator: entry (p, d) is the sum over k of a (p, k) * b (d, k). A change of float format is the
  identity on extended reals, so the narrowed operands are the blocks themselves.
    accumulator update, entry (p, d):   acc (p, d) + sum over k < 2048 of x (p, k) * w (d, k)
    reset value, every entry:           0
    epilogue, entry (p, 0):             1 / (1 + exp (0 - s)) with s the sum over d < 256 of
                                        ((sum over k < 512 of r (p, k) * wr (d, k)) * ea (p, d)) * eb (p, d),
  and 0 - s = - s on every extended real.
-/
import proofs.«170534_j62843961475630_1_alg».proof.Proof.Gen.KernelIdeal.Skeleton
import proofs.«170534_j62843961475630_1_alg».proof.Proof.Score
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Cert.Score
open Idealize.ShloMosaic Idealize.ShloMosaic.ValueIdx
open scoped BigOperators

/-! ## Which operand coordinate each axis of the two products reads -/

theorem lhs_ent_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_ent_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_ent_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_ent_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

theorem lhs_rel_0 (i : S512x256.Idx) (q : dot_S512x512_S256x512_S512x256_1_1_0_0_n_n.contr.Idx) :
    (dot_S512x512_S256x512_S512x256_1_1_0_0_n_n.lhsIdx i q 0).val = (i 0).val := by
  unfold DotDims.lhsIdx
  rw [dif_neg (show ¬(0 : Fin S512x512.rank) ∈ dot_S512x512_S256x512_S512x256_1_1_0_0_n_n.lhsBatch by decide), dif_pos (show (0 : Fin S512x512.rank) ∈ dot_S512x512_S256x512_S512x256_1_1_0_0_n_n.lhsNonContracting by decide)]
  rfl
theorem lhs_rel_1 (i : S512x256.Idx) (q : dot_S512x512_S256x512_S512x256_1_1_0_0_n_n.contr.Idx) :
    (dot_S512x512_S256x512_S512x256_1_1_0_0_n_n.lhsIdx i q 1).val = (q ⟨0, by decide⟩).val :=
  dot_S512x512_S256x512_S512x256_1_1_0_0_n_n.lhsIdx_val_of_single rfl i q
theorem rhs_rel_0 (i : S512x256.Idx) (q : dot_S512x512_S256x512_S512x256_1_1_0_0_n_n.contr.Idx) :
    (dot_S512x512_S256x512_S512x256_1_1_0_0_n_n.rhsIdx i q 0).val = (i 1).val := by
  unfold DotDims.rhsIdx
  rw [dif_neg (show ¬(0 : Fin S256x512.rank) ∈ dot_S512x512_S256x512_S512x256_1_1_0_0_n_n.rhsBatch by decide), dif_pos (show (0 : Fin S256x512.rank) ∈ dot_S512x512_S256x512_S512x256_1_1_0_0_n_n.rhsNonContracting by decide)]
  rfl
theorem rhs_rel_1 (i : S512x256.Idx) (q : dot_S512x512_S256x512_S512x256_1_1_0_0_n_n.contr.Idx) :
    (dot_S512x512_S256x512_S512x256_1_1_0_0_n_n.rhsIdx i q 1).val = (q ⟨0, by decide⟩).val :=
  dot_S512x512_S256x512_S512x256_1_1_0_0_n_n.rhsIdx_val_of_single rfl i q

/-! ## The two products at an entry -/

/-- A block of 2048 columns of x (or y) against the same columns of W_ent, from zero: entry (p, d) is the sum over those columns. -/
theorem entDot_apply (a : FVec Ideal S512x2048 .bf16) (b : FVec Ideal S256x2048 .bf16) (p : Fin 512) (d : Fin 256) :
    matmul dot_S512x2048_S256x2048_S512x256_1_1_0_0_n_n none a b (constant S512x256 .f32 0x00000000#32) (ix2 p d)
      = ∑ k : Fin 2048, a (ix2 p k) * b (ix2 d k) := by
  refine (Ideal.matmul_constant_zero_apply dot_S512x2048_S256x2048_S512x256_1_1_0_0_n_n none a b (ix2 p d)).trans ?_
  rw [← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p d) ((contrEquiv1 dot_S512x2048_S256x2048_S512x256_1_1_0_0_n_n 2048 rfl rfl).symm k) = ix2 p k := funext fun ax => Fin.ext (by
    match ax with
    | ⟨0, _⟩ => exact lhs_ent_0 _ _
    | ⟨1, _⟩ => exact (lhs_ent_1 _ _).trans hk)
  have er : dot_S512x2048_S256x2048_S512x256_1_1_0_0_n_n.rhsIdx (ix2 p d) ((contrEquiv1 dot_S512x2048_S256x2048_S512x256_1_1_0_0_n_n 2048 rfl rfl).symm k) = ix2 d k := funext fun ax => Fin.ext (by
    match ax with
    | ⟨0, _⟩ => exact rhs_ent_0 _ _
    | ⟨1, _⟩ => exact (rhs_ent_1 _ _).trans hk)
  rw [el, er]

/-- A block of rows of r against W_rel, from zero: entry (p, d) is the sum over the 512 shared coordinates. -/
theorem relDot_apply (a : FVec Ideal S512x512 .bf16) (b : FVec Ideal S256x512 .bf16) (p : Fin 512) (d : Fin 256) :
    matmul dot_S512x512_S256x512_S512x256_1_1_0_0_n_n none a b (constant S512x256 .f32 0x00000000#32) (ix2 p d)
      = ∑ k : Fin 512, a (ix2 p k) * b (ix2 d k) := by
  refine (Ideal.matmul_constant_zero_apply dot_S512x512_S256x512_S512x256_1_1_0_0_n_n none a b (ix2 p d)).trans ?_
  rw [← Equiv.sum_comp (contrEquiv1 dot_S512x512_S256x512_S512x256_1_1_0_0_n_n 512 rfl rfl).symm]
  refine Finset.sum_congr rfl fun k _ => ?_
  have hk := contrEquiv1_symm_val dot_S512x512_S256x512_S512x256_1_1_0_0_n_n 512 rfl rfl k
  have el : dot_S512x512_S256x512_S512x256_1_1_0_0_n_n.lhsIdx (ix2 p d) ((contrEquiv1 dot_S512x512_S256x512_S512x256_1_1_0_0_n_n 512 rfl rfl).symm k) = ix2 p k := funext fun ax => Fin.ext (by
    match ax with
    | ⟨0, _⟩ => exact lhs_rel_0 _ _
    | ⟨1, _⟩ => exact (lhs_rel_1 _ _).trans hk)
  have er : dot_S512x512_S256x512_S512x256_1_1_0_0_n_n.rhsIdx (ix2 p d) ((contrEquiv1 dot_S512x512_S256x512_S512x256_1_1_0_0_n_n 512 rfl rfl).symm k) = ix2 d k := funext fun ax => Fin.ext (by
    match ax with
    | ⟨0, _⟩ => exact rhs_rel_0 _ _
    | ⟨1, _⟩ => exact (rhs_rel_1 _ _).trans hk)
  rw [el, er]

/-! ## The layout steps of the epilogue -/

/-- The sum along each row of a 512 by 256 block, from the additive neutral word: entry p is the sum over the row. -/
theorem rowSum_apply (src : FVec Ideal S512x256 .f32) (p : Fin 512) :
    multiReduction (F := Ideal) .add [1] S512 src 0x00000000#32 reduces_S512x256_S512 (.inl rfl) rfl (ix1 p)
      = ∑ d : Fin 256, src (ix2 p d) := by
  refine (Ideal.multiReduction_add_single src 0x00000000#32 reduces_S512x256_S512 (.inl rfl) rfl (ix1 p)).trans ?_
  exact Finset.sum_congr rfl fun d _ => congrArg src (funext fun ax => Fin.ext (by
    match ax with
    | ⟨0, _⟩ => rfl
    | ⟨1, _⟩ => rfl))

/-- A vector of 512 entries laid out as a column: entry (p, 0) is entry p. -/
theorem column_apply (v : FVec Ideal S512 .f32) (p : Fin 512) (z : Fin 1) :
    shapeCast S512x1 v shapeCasts_S512_S512x1 (ix2 p z) = v (ix1 p) := by
  refine shapeCast_apply v shapeCasts_S512_S512x1 (ix2 p z) (ix1 p) ?_
  rw [Shape.rowMajor_val_one, Shape.rowMajor_val_two]
  show p.val = p.val * 1 + z.val
  have := z.isLt
  omega

/-! ## The payloads at an entry -/

/-- The reset value is zero everywhere. -/
theorem reset_ea_apply (j : S512x256.Idx) : (k0_pay1 (F := Ideal)) j = 0 := by
  show shapeCast S512x256 (broadcast S512x256 (Scalar.ofBits (F := Ideal) .f32 0x00000000#32)) shapeCasts_S512x256_S512x256 j = 0
  rw [shapeCast_self]
  exact Ideal.ofBits_zero_f32

theorem reset_eb_apply (j : S512x256.Idx) : (k0_pay2 (F := Ideal)) j = 0 := by
  show shapeCast S512x256 (broadcast S512x256 (Scalar.ofBits (F := Ideal) .f32 0x00000000#32)) shapeCasts_S512x256_S512x256 j = 0
  rw [shapeCast_self]
  exact Ideal.ofBits_zero_f32

/-- The update of the first accumulator: what it held plus the block's sum. -/
theorem update_ea_apply (x : Vec Ideal S512x2048 .f32) (w : Vec Ideal S256x2048 .f32) (acc : Vec Ideal S512x256 .f32)
    (p : Fin 512) (d : Fin 256) :
    k0_pay4 x w acc (ix2 p d) = acc (ix2 p d) + ∑ k : Fin 2048, x (ix2 p k) * w (ix2 d k) := by
  show shapeCast S512x256 (addf acc (matmul dot_S512x2048_S256x2048_S512x256_1_1_0_0_n_n none
      (truncf (F := Ideal) .bf16 x bitsLt_bf16_f32) (truncf (F := Ideal) .bf16 w bitsLt_bf16_f32) (constant S512x256 .f32 0x00000000#32)))
    shapeCasts_S512x256_S512x256 (ix2 p d) = _
  rw [shapeCast_self]
  show acc (ix2 p d) + matmul dot_S512x2048_S256x2048_S512x256_1_1_0_0_n_n none
      (truncf (F := Ideal) .bf16 x bitsLt_bf16_f32) (truncf (F := Ideal) .bf16 w bitsLt_bf16_f32) (constant S512x256 .f32 0x00000000#32) (ix2 p d) = _
  rw [entDot_apply]
  rfl

/-- The update of the second accumulator. -/
theorem update_eb_apply (y : Vec Ideal S512x2048 .f32) (w : Vec Ideal S256x2048 .f32) (acc : Vec Ideal S512x256 .f32)
    (p : Fin 512) (d : Fin 256) :
    k0_pay5 y w acc (ix2 p d) = acc (ix2 p d) + ∑ k : Fin 2048, y (ix2 p k) * w (ix2 d k) := by
  show shapeCast S512x256 (addf acc (matmul dot_S512x2048_S256x2048_S512x256_1_1_0_0_n_n none
      (truncf (F := Ideal) .bf16 y bitsLt_bf16_f32) (truncf (F := Ideal) .bf16 w bitsLt_bf16_f32) (constant S512x256 .f32 0x00000000#32)))
    shapeCasts_S512x256_S512x256 (ix2 p d) = _
  rw [shapeCast_self]
  show acc (ix2 p d) + matmul dot_S512x2048_S256x2048_S512x256_1_1_0_0_n_n none
      (truncf (F := Ideal) .bf16 y bitsLt_bf16_f32) (truncf (F := Ideal) .bf16 w bitsLt_bf16_f32) (constant S512x256 .f32 0x00000000#32) (ix2 p d) = _
  rw [entDot_apply]
  rfl

/-- The epilogue: the logistic function of the row's sum of er * ea * eb. -/
theorem epilogue_apply (r : Vec Ideal S512x512 .f32) (wr : Vec Ideal S256x512 .f32) (ea eb : Vec Ideal S512x256 .f32)
    (p : Fin 512) (z : Fin 1) :
    k0_pay6 r wr ea eb (ix2 p z)
      = logisticFn (∑ d : Fin 256, ((∑ k : Fin 512, r (ix2 p k) * wr (ix2 d k)) * ea (ix2 p d)) * eb (ix2 p d)) := by
  unfold logisticFn
  show Ideal.div (Ideal.ofBits .f32 0x3F800000#32) (Ideal.ofBits .f32 0x3F800000#32 + Ideal.exp (Ideal.ofBits .f32 0x00000000#32 -
      shapeCast S512x1 (multiReduction (F := Ideal) .add [1] S512
        (mulf (mulf (matmul dot_S512x512_S256x512_S512x256_1_1_0_0_n_n none (truncf (F := Ideal) .bf16 r bitsLt_bf16_f32) (truncf (F := Ideal) .bf16 wr bitsLt_bf16_f32)
          (constant S512x256 .f32 0x00000000#32)) ea) eb)
        0x00000000#32 reduces_S512x256_S512 (.inl rfl) rfl) shapeCasts_S512_S512x1 (ix2 p z))) = _
  rw [column_apply, rowSum_apply, Ideal.ofBits_zero_f32, zero_sub]
  refine congrArg (fun s => Ideal.div (Ideal.ofBits .f32 0x3F800000#32) (Ideal.ofBits .f32 0x3F800000#32 + Ideal.exp (-s))) ?_
  refine Finset.sum_congr rfl fun d _ => ?_
  show (matmul dot_S512x512_S256x512_S512x256_1_1_0_0_n_n none (truncf (F := Ideal) .bf16 r bitsLt_bf16_f32) (truncf (F := Ideal) .bf16 wr bitsLt_bf16_f32)
      (constant S512x256 .f32 0x00000000#32) (ix2 p d) * ea (ix2 p d)) * eb (ix2 p d) = _
  rw [relDot_apply]
  rfl

end Cert.KernelIdeal.Payload

end
-- ==== Proof.Accum.lean ====
/-
  What the two accumulators hold after every grid point, and what a tile's last step writes.

  Point n is step n % 8 of row tile n / 8. By induction on n: after point n the first accumulator holds blocks
  0 .. n % 8 of the contraction of x against W_ent for the rows of tile n / 8, and the second the same for y. A first
  step (n % 8 = 0) resets to zero and adds block 0; a later step adds block n % 8 to what point n - 1 left, which is in the
  same tile. After a last step (n % 8 = 7) all 8 blocks are in, so each accumulator holds the whole contraction, and the
  output block that step stores is the logistic function of each row's score.
-/
import proofs.«170534_j62843961475630_1_alg».proof.Proof.Gen.KernelIdeal.Frame
import proofs.«170534_j62843961475630_1_alg».proof.Proof.Score
import proofs.«170534_j62843961475630_1_alg».proof.Proof.Pieces
import proofs.«170534_j62843961475630_1_alg».proof.Proof.Payload
import proofs.«170534_j62843961475630_1_alg».proof.Proof.Blocks

noncomputable section

namespace Cert.KernelIdeal.Accum

open Cert.KernelIdeal Cert.KernelIdeal.Gen Cert.Score Cert.KernelIdeal.Blocks Cert.KernelIdeal.Payload
open Idealize.ShloMosaic Idealize.ShloMosaic.TcCoe Idealize.ShloMosaic.ValueIdx Idealize.SL.Sem
open scoped BigOperators

variable (m : (ℓ : Loc nD τ sig) → Buf (Elt Ideal) ℓ)

/-! ## One step of each accumulator -/

/-- The first accumulator after the first step of a tile holds block 0 of its contraction. -/
theorem first_step_ea (c : Dev nD) (t : Fin cfg0.N) (q e : Fin 8) (ht : t.val = 8 * q.val + e.val) (he0 : e.val = 0) :
    k0_pay4 (xblk m c t) (weblk m c t) (k0_pay1 (F := Ideal))
      = partialDot (xarr m c) (wearr m c) q.val q.isLt e.val e.isLt := by
  funext j
  obtain ⟨p, d, rfl⟩ : ∃ (p : Fin 512) (d : Fin 256), j = ix2 p d := ⟨j 0, j 1, eq_ix2 j⟩
  refine (update_ea_apply (xblk m c t) (weblk m c t) (k0_pay1 (F := Ideal)) p d).trans ?_
  rw [reset_ea_apply, zero_add, partialDot_first _ _ _ _ _ _ he0]
  unfold dotBlock
  exact Finset.sum_congr rfl fun k _ => congrArg₂ (· * ·) (xblk_apply m c t q e ht p k) (weblk_apply m c t q e ht d k)

/-- After a later step it holds one more block than the step before left. -/
theorem next_step_ea (c : Dev nD) (t : Fin cfg0.N) (q e : Fin 8) (ht : t.val = 8 * q.val + e.val) (hne : e.val ≠ 0)
    (acc : Vec Ideal S512x256 .f32)
    (hacc : acc = partialDot (xarr m c) (wearr m c) q.val q.isLt (e.val - 1) (by have := e.isLt; omega)) :
    k0_pay4 (xblk m c t) (weblk m c t) acc
      = partialDot (xarr m c) (wearr m c) q.val q.isLt e.val e.isLt := by
  subst hacc
  funext j
  obtain ⟨p, d, rfl⟩ : ∃ (p : Fin 512) (d : Fin 256), j = ix2 p d := ⟨j 0, j 1, eq_ix2 j⟩
  refine (update_ea_apply (xblk m c t) (weblk m c t) _ p d).trans ?_
  rw [partialDot_next _ _ _ _ _ _ hne]
  refine congrArg (_ + ·) ?_
  unfold dotBlock
  exact Finset.sum_congr rfl fun k _ => congrArg₂ (· * ·) (xblk_apply m c t q e ht p k) (weblk_apply m c t q e ht d k)

/-- The second accumulator after the first step of a tile holds block 0 of its contraction. -/
theorem first_step_eb (c : Dev nD) (t : Fin cfg0.N) (q e : Fin 8) (ht : t.val = 8 * q.val + e.val) (he0 : e.val = 0) :
    k0_pay5 (yblk m c t) (weblk m c t) (k0_pay2 (F := Ideal))
      = partialDot (yarr m c) (wearr m c) q.val q.isLt e.val e.isLt := by
  funext j
  obtain ⟨p, d, rfl⟩ : ∃ (p : Fin 512) (d : Fin 256), j = ix2 p d := ⟨j 0, j 1, eq_ix2 j⟩
  refine (update_eb_apply (yblk m c t) (weblk m c t) (k0_pay2 (F := Ideal)) p d).trans ?_
  rw [reset_eb_apply, zero_add, partialDot_first _ _ _ _ _ _ he0]
  unfold dotBlock
  exact Finset.sum_congr rfl fun k _ => congrArg₂ (· * ·) (yblk_apply m c t q e ht p k) (weblk_apply m c t q e ht d k)

/-- After a later step it holds one more block than the step before left. -/
theorem next_step_eb (c : Dev nD) (t : Fin cfg0.N) (q e : Fin 8) (ht : t.val = 8 * q.val + e.val) (hne : e.val ≠ 0)
    (acc : Vec Ideal S512x256 .f32)
    (hacc : acc = partialDot (yarr m c) (wearr m c) q.val q.isLt (e.val - 1) (by have := e.isLt; omega)) :
    k0_pay5 (yblk m c t) (weblk m c t) acc
      = partialDot (yarr m c) (wearr m c) q.val q.isLt e.val e.isLt := by
  subst hacc
  funext j
  obtain ⟨p, d, rfl⟩ : ∃ (p : Fin 512) (d : Fin 256), j = ix2 p d := ⟨j 0, j 1, eq_ix2 j⟩
  refine (update_eb_apply (yblk m c t) (weblk m c t) _ p d).trans ?_
  rw [partialDot_next _ _ _ _ _ _ hne]
  refine congrArg (_ + ·) ?_
  unfold dotBlock
  exact Finset.sum_congr rfl fun k _ => congrArg₂ (· * ·) (yblk_apply m c t q e ht p k) (weblk_apply m c t q e ht d k)

/-! ## After every point -/

/-- After point `n` the accumulators hold blocks `0 .. n % 8` of the two contractions for the rows of tile `n / 8`. -/
theorem after_point (c : Dev nD) : ∀ (n : ℕ) (hn : n < cfg0.N),
    (outsAt0 m c n hn).2.1
        = partialDot (xarr m c) (wearr m c) (n / 8) (by have h := lt_of_lt_of_eq hn (show cfg0.N = 64 from N_0); omega) (n % 8) (Nat.mod_lt _ (by decide))
    ∧ (outsAt0 m c n hn).2.2
        = partialDot (yarr m c) (wearr m c) (n / 8) (by have h := lt_of_lt_of_eq hn (show cfg0.N = 64 from N_0); omega) (n % 8) (Nat.mod_lt _ (by decide)) := by
  intro n
  induction n with
  | zero =>
    intro hn
    have h0 : (0 : ℕ) % 8 = 0 := rfl
    have h1 : ¬ (0 : ℕ) % 8 = 7 := by decide
    rw [outsAt0_A m c ⟨0, hn⟩ h0 h1]
    dsimp only
    let t : Fin cfg0.N := ⟨0, hn⟩
    refine ⟨(Pieces.first_ea c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_, (Pieces.first_eb c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_⟩
    · exact first_step_ea m c t ⟨0, by decide⟩ ⟨0, by decide⟩ rfl rfl
    · exact first_step_eb m c t ⟨0, by decide⟩ ⟨0, by decide⟩ rfl rfl
  | succ n ih =>
    intro hn
    have hN : n + 1 < 64 := lt_of_lt_of_eq hn (show cfg0.N = 64 from N_0)
    have hn' : n < cfg0.N := Nat.lt_of_succ_lt hn
    let t : Fin cfg0.N := ⟨n + 1, hn⟩
    have hq : (n + 1) / 8 < 8 := by omega
    have he : (n + 1) % 8 < 8 := Nat.mod_lt _ (by decide)
    have ht : t.val = 8 * (⟨(n + 1) / 8, hq⟩ : Fin 8).val + (⟨(n + 1) % 8, he⟩ : Fin 8).val := by
      show n + 1 = 8 * ((n + 1) / 8) + (n + 1) % 8
      omega
    by_cases h0 : (n + 1) % 8 = 0
    · have h1 : ¬ (n + 1) % 8 = 7 := by omega
      rw [outsAt0_A m c ⟨n + 1, hn⟩ h0 h1]
      dsimp only
      refine ⟨(Pieces.first_ea c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_, (Pieces.first_eb c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_⟩
      · exact first_step_ea m c t ⟨(n + 1) / 8, hq⟩ ⟨(n + 1) % 8, he⟩ ht h0
      · exact first_step_eb m c t ⟨(n + 1) / 8, hq⟩ ⟨(n + 1) % 8, he⟩ ht h0
    · have ih' := ih hn'
      have hqe : n / 8 = (n + 1) / 8 := by omega
      have hee : n % 8 = (n + 1) % 8 - 1 := by omega
      by_cases h1 : (n + 1) % 8 = 7
      · rw [outsAt0_C m c ⟨n + 1, hn⟩ h0 h1]
        dsimp only
        refine ⟨(Pieces.last_ea c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n hn').2.1 (outsAt0 m c n hn').2.2).trans ?_, (Pieces.last_eb c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n hn').2.1 (outsAt0 m c n hn').2.2).trans ?_⟩
        · exact next_step_ea m c t ⟨(n + 1) / 8, hq⟩ ⟨(n + 1) % 8, he⟩ ht h0 _
            (ih'.1.trans (partialDot_congr _ _ _ _ _ _ hqe hee))
        · exact next_step_eb m c t ⟨(n + 1) / 8, hq⟩ ⟨(n + 1) % 8, he⟩ ht h0 _
            (ih'.2.trans (partialDot_congr _ _ _ _ _ _ hqe hee))
      · rw [outsAt0_B m c ⟨n + 1, hn⟩ h0 h1]
        dsimp only
        refine ⟨(Pieces.mid_ea c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c n hn').2.1 (outsAt0 m c n hn').2.2).trans ?_, (Pieces.mid_eb c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c n hn').2.1 (outsAt0 m c n hn').2.2).trans ?_⟩
        · exact next_step_ea m c t ⟨(n + 1) / 8, hq⟩ ⟨(n + 1) % 8, he⟩ ht h0 _
            (ih'.1.trans (partialDot_congr _ _ _ _ _ _ hqe hee))
        · exact next_step_eb m c t ⟨(n + 1) / 8, hq⟩ ⟨(n + 1) % 8, he⟩ ht h0 _
            (ih'.2.trans (partialDot_congr _ _ _ _ _ _ hqe hee))

/-! ## What a tile's last step writes -/

/-- At a last step the output buffer's entry (p, 0) is the logistic function of the score of row 512 (n / 8) + p. -/
theorem out_at_last (c : Dev nD) (n : ℕ) (hn : n < cfg0.N) (h1 : n % 8 = 7) (p : Fin 512) (z : Fin 1) :
    (outsAt0 m c n hn).1 (ix2 p z)
      = logisticFn (score (xarr m c) (yarr m c) (rarr m c) (wearr m c) (wrarr m c)
          (row ⟨n / 8, by have h := lt_of_lt_of_eq hn (show cfg0.N = 64 from N_0); omega⟩ p)) := by
  have hN : n < 64 := lt_of_lt_of_eq hn (show cfg0.N = 64 from N_0)
  have h0 : ¬ n % 8 = 0 := by omega
  have hq : n / 8 < 8 := by omega
  have he : n % 8 < 8 := Nat.mod_lt _ (by decide)
  let t : Fin cfg0.N := ⟨n, hn⟩
  have ht : t.val = 8 * (⟨n / 8, hq⟩ : Fin 8).val + (⟨n % 8, he⟩ : Fin 8).val := by
    show n = 8 * (n / 8) + n % 8
    omega
  obtain ⟨n', rfl⟩ : ∃ n', n = n' + 1 := ⟨n - 1, by omega⟩
  have hn' : n' < cfg0.N := Nat.lt_of_succ_lt hn
  have inv := after_point m c (n' + 1) hn
  rw [outsAt0_C m c ⟨n' + 1, hn⟩ h0 h1] at inv
  rw [outsAt0_C m c ⟨n' + 1, hn⟩ h0 h1]
  dsimp only at inv ⊢
  refine (congrFun (Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n' hn').2.1 (outsAt0 m c n' hn').2.2) (ix2 p z)).trans ?_
  have e1 : sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n' hn').2.1 (outsAt0 m c n' hn').2.2
      = partialDot (xarr m c) (wearr m c) ((n' + 1) / 8) hq ((n' + 1) % 8) he := inv.1
  have e2 : sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n' hn').2.1 (outsAt0 m c n' hn').2.2
      = partialDot (yarr m c) (wearr m c) ((n' + 1) / 8) hq ((n' + 1) % 8) he := inv.2
  rw [← Pieces.last_ea c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n' hn').2.1 (outsAt0 m c n' hn').2.2,
    ← Pieces.last_eb c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c n' hn').2.1 (outsAt0 m c n' hn').2.2, e1, e2]
  refine (epilogue_apply (rblk m c t) (wrblk m c t) _ _ p z).trans ?_
  unfold score
  refine congrArg logisticFn (Finset.sum_congr rfl fun d _ => ?_)
  rw [partialDot_last _ _ _ _ _ _ h1, partialDot_last _ _ _ _ _ _ h1]
  refine congrArg₂ (· * ·) (congrArg₂ (· * ·) ?_ rfl) rfl
  unfold dotRow
  exact Finset.sum_congr rfl fun k _ =>
    congrArg₂ (· * ·) (rblk_apply m c t ⟨(n' + 1) / 8, hq⟩ ⟨(n' + 1) % 8, he⟩ ht p k) (wrblk_apply m c t ⟨(n' + 1) / 8, hq⟩ ⟨(n' + 1) % 8, he⟩ ht d k)

end Cert.KernelIdeal.Accum

end
-- ==== Proof.KernelValue.lean ====
/-
  The kernel's output array after the run.

  The output window's block index is the row tile, so its block is written back once per tile, at the tile's last step
  (points 7, 15, …, 63). What is written back there is the logistic function of the scores of the tile's 512 rows, and
  the 8 tiles' blocks cover all 4096 rows of the one output column. So the array ends holding `result` of the
  argument arrays.
-/
import proofs.«170534_j62843961475630_1_alg».proof.Proof.Gen.KernelIdeal.Value
import proofs.«170534_j62843961475630_1_alg».proof.Proof.Score
import proofs.«170534_j62843961475630_1_alg».proof.Proof.Blocks
import proofs.«170534_j62843961475630_1_alg».proof.Proof.Accum

noncomputable section

namespace Cert.KernelIdeal.KernelValue

open Cert.KernelIdeal Cert.KernelIdeal.Gen Cert.Score Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The function of the argument arrays the output array ends holding. -/
abbrev out (c : Dev nD) : Buf (Elt Ideal) ((c : Thread nD τ).loc main_v0) :=
  result (xarr m c) (yarr m c) (rarr m c) (wearr m c) (wrarr m c)

/-- The output block is written back exactly at the last step of each row tile. -/
theorem flush_iff : ∀ t : Fin cfg0.N, (cfg0.win 5).flush t = true ↔ t.val % 8 = 7 :=
  (by decide +kernel : ∀ t : Fin grid0.N, _)

/-- What a flushing point writes back is its block of `out`. -/
theorem flushed_eq (c : Dev nD) (t : Fin cfg0.N) (hf : (cfg0.win 5).flush t = true) :
    (dats m 0 c).flushed 5 t = ((cfg0.win 5).blk t).view.read (Elt Ideal) (out m c) := by
  have h7 : t.val % 8 = 7 := (flush_iff t).mp hf
  have hN : t.val < 64 := lt_of_lt_of_eq t.isLt (show cfg0.N = 64 from N_0)
  rw [Value.flushed5]
  refine funext fun (j : S512x1.Idx) => ?_
  obtain ⟨p, z, rfl⟩ : ∃ (p : Fin 512) (z : Fin 1), j = ix2 p z := ⟨j 0, j 1, eq_ix2 j⟩
  show (outsAt0 m c t.val t.isLt).1 (ix2 p z) = out m c (((cfg0.win 5).blk t).view.emb (ix2 p z))
  rw [Accum.out_at_last m c t.val t.isLt h7 p z]
  show _ = logisticFn (score (xarr m c) (yarr m c) (rarr m c) (wearr m c) (wrarr m c) ((((cfg0.win 5).blk t).view.emb (ix2 p z)) 0))
  refine congrArg (fun i => logisticFn (score (xarr m c) (yarr m c) (rarr m c) (wearr m c) (wrarr m c) i)) (Fin.ext ?_)
  show 512 * (t.val / 8) + p.val = win0_5.index t 0 * 512 + 1 * p.val
  rw [(idx_out t).1]
  omega

/-- An index of the output array is in point `t`'s block iff each coordinate is in the block's range. -/
theorem mem_blk (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v0).slice (win0_5.rect t)).set ↔ _
  rw [View.set_slice_whole, Rect.mem_set_unit]
  exact Iff.rfl

/-- Row `i` of the output is in the block written back at the last step of tile `i / 512`. -/
theorem cover (i : S4096x1.Idx) : ∃ t : Fin cfg0.N, (cfg0.win 5).flush t = true ∧ i ∈ ((cfg0.win 5).blk t).view.set := by
  have h0 : (i 0).val < 4096 := (i 0).isLt
  have h1 : (i 1).val < 1 := (i 1).isLt
  have hN : cfg0.N = 64 := N_0
  have hb : 8 * ((i 0).val / 512) + 7 < cfg0.N := by omega
  refine ⟨⟨8 * ((i 0).val / 512) + 7, hb⟩, (flush_iff _).mpr (by show (8 * ((i 0).val / 512) + 7) % 8 = 7; omega), ?_⟩
  rw [mem_blk]
  have hi := idx_out ⟨8 * ((i 0).val / 512) + 7, hb⟩
  intro a
  match a with
  | ⟨0, _⟩ =>
    show win0_5.index ⟨8 * ((i 0).val / 512) + 7, hb⟩ 0 * 512 ≤ (i 0).val ∧ (i 0).val < win0_5.index ⟨8 * ((i 0).val / 512) + 7, hb⟩ 0 * 512 + 512
    rw [hi.1]
    show (8 * ((i 0).val / 512) + 7) / 8 * 512 ≤ (i 0).val ∧ (i 0).val < (8 * ((i 0).val / 512) + 7) / 8 * 512 + 512
    omega
  | ⟨1, _⟩ =>
    show win0_5.index ⟨8 * ((i 0).val / 512) + 7, hb⟩ 1 * 1 ≤ (i 1).val ∧ (i 1).val < win0_5.index ⟨8 * ((i 0).val / 512) + 7, hb⟩ 1 * 1 + 1
    rw [hi.2]
    omega

/-- The output array after the run. -/
theorem final (c : Dev nD) : (dats m 0 c).arrAt 5 cfg0.N = out m c :=
  (dats m 0 c).arrAt_eq_of_cover 5 (out m c) (fun t hf => flushed_eq m c t hf) cover

/-- The run with the output array named: `result` of the argument arrays, which end unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefValue.lean ====
/-
  The reference computes `result`.

  Read one operation at a time: W_ent and W_rel are transposed and the three products contract the SECOND axis of the
  left operand against the FIRST axis of the transposed right operand, so entry (i, d) of each product is the sum over
  the shared coordinate of left (i, k) * W (d, k): `dotRow`. The two elementwise products, the row sum from zero, the
  broadcast to a column, and 1 / (1 + exp (- s)) are `score` and `logisticFn` as written.
-/
import proofs.«170534_j62843961475630_1_alg».proof.Proof.Gen.ReferenceIdeal.Read
import proofs.«170534_j62843961475630_1_alg».proof.Proof.Score

noncomputable section

namespace Cert.ReferenceIdeal.RefValue

open Cert.ReferenceIdeal Cert.ReferenceIdeal.Read Cert.Score
open Idealize.ShloMosaic Idealize.ShloMosaic.ValueIdx
open scoped BigOperators

/-- The reference's last stage is the logistic function of each row's score. -/
theorem reference_eq (x0 x1 : Vec Ideal S4096x16384 .f32) (x2 : Vec Ideal S4096x512 .f32)
    (x3 : Vec Ideal S256x16384 .f32) (x4 : Vec Ideal S256x512 .f32) :
    val_main_v15 (F := Ideal) x0 x1 x2 x3 x4 = result x0 x1 x2 x3 x4 := by
  funext i
  obtain ⟨p, z, rfl⟩ : ∃ (p : Fin 4096) (z : Fin 1), i = ix2 p z := ⟨i 0, i 1, eq_ix2 i⟩
  rw [val_main_v15_apply, val_main_v14_apply, val_main_cst_1_apply, val_main_v13_apply, val_main_v12_apply,
    val_main_cst_0_apply, val_main_v11_apply, val_main_v10_apply, val_main_v9_apply, val_main_v8_apply,
    val_main_cst_apply]
  simp only [Ideal.hostDivf_def, Ideal.addf_def, Ideal.hostUnary_exp_def, Ideal.hostNegf_def, Ideal.negf_def,
    Ideal.ofBits_def, Ideal.ofBits_zero_f32, zero_add]
  unfold result logisticFn score
  refine congrArg (fun s => Ideal.div (Ideal.ofBits .f32 0x3F800000#32) (Ideal.ofBits .f32 0x3F800000#32 + Ideal.exp (-s)))
    (Finset.sum_congr rfl fun d _ => ?_)
  rw [val_main_v7_apply, val_main_v6_apply, val_main_v5_apply, val_main_v1_apply, val_main_v3_apply]
  simp only [Ideal.mulf_def, val_main_v0_apply, val_main_v2_apply, val_main_v4_apply]
  unfold dotRow
  have hidx : ∀ {n0 n1 : Nat} (f g : (⟨2, ![n0, n1]⟩ : Shape).Idx), (f 0).val = (g 0).val → (f 1).val = (g 1).val → f = g :=
    fun f g h0 h1 => funext fun a => Fin.ext (by
      match a with
      | ⟨0, _⟩ => exact h0
      | ⟨1, _⟩ => exact h1)
  refine congrArg₂ (· * ·) (congrArg₂ (· * ·) (Finset.sum_congr rfl fun k _ => ?_) (Finset.sum_congr rfl fun k _ => ?_))
    (Finset.sum_congr rfl fun k _ => ?_)
  · exact congrArg₂ (· * ·) (congrArg x2 (hidx _ _ rfl rfl)) (congrArg x4 (hidx _ _ rfl rfl))
  · exact congrArg₂ (· * ·) (congrArg x0 (hidx _ _ rfl rfl)) (congrArg x3 (hidx _ _ rfl rfl))
  · exact congrArg₂ (· * ·) (congrArg x1 (hidx _ _ rfl rfl)) (congrArg x3 (hidx _ _ rfl rfl))

end Cert.ReferenceIdeal.RefValue

end
-- ==== Proof.lean ====
/-
  A fused bilinear scoring kernel against its plain reference: both compute, for each of 4096 rows i,
      sigmoid (sum over d < 256 of er i d * ea i d * eb i d),
  where ea = x W_ent^T and eb = y W_ent^T contract 16384 columns and er = r W_rel^T contracts 512.

  The kernel walks a grid of 8 row tiles by 8 column blocks. For one row tile it keeps two 512 by 256 accumulators: they
  are reset to zero at the tile's first block and each block adds the product of a 512 by 2048 block of x (of y) with the
  matching 2048 columns of W_ent; at the tile's last block it forms er, multiplies the three entrywise, sums each row
  and stores 1 / (1 + exp (0 - s)) for the tile's 512 rows. The reference forms the three products whole, multiplies
  entrywise in the same order, sums each row from zero and applies 1 / (1 + exp (- s)).

  On extended reals a change of float format is the identity, a product into a zero accumulator is the plain sum over
  the contracted coordinate, and 0 - s = - s. So the only difference is that the kernel's contraction over 16384 columns
  is taken as 8 consecutive block sums added one at a time from zero, and a sum over 16384 columns is the sum of its 8
  block sums because addition is commutative and associative, for every extended real: the precondition is not used
  for the values. The proof: what one run of the body leaves, case by case (Pieces); its arithmetic at an entry
  (Payload); where each window's block sits in its array (Blocks); by induction over the 64 grid points what the
  accumulators hold, and what a tile's last step writes (Accum); the output array after the run (KernelValue); the
  reference read one operation at a time (RefValue). The three frames are the generated ones, and the idealized kernel
  is the kernel's own text read on extended reals, so there is nothing to preserve.
-/
import proofs.«170534_j62843961475630_1_alg».proof.Defs
import proofs.«170534_j62843961475630_1_alg».proof.Proof.Gen.Kernel
import proofs.«170534_j62843961475630_1_alg».proof.Proof.Gen.Kernel.Skeleton
import proofs.«170534_j62843961475630_1_alg».proof.Proof.Gen.Kernel.Launch
import proofs.«170534_j62843961475630_1_alg».proof.Proof.Gen.Kernel.Points
import proofs.«170534_j62843961475630_1_alg».proof.Proof.Gen.Kernel.Frame
import proofs.«170534_j62843961475630_1_alg».proof.Proof.Gen.KernelIdeal
import proofs.«170534_j62843961475630_1_alg».proof.Proof.Gen.KernelIdeal.Skeleton
import proofs.«170534_j62843961475630_1_alg».proof.Proof.Gen.KernelIdeal.Launch
import proofs.«170534_j62843961475630_1_alg».proof.Proof.Gen.KernelIdeal.Points
import proofs.«170534_j62843961475630_1_alg».proof.Proof.Gen.KernelIdeal.Frame
import proofs.«170534_j62843961475630_1_alg».proof.Proof.Gen.KernelIdeal.Value
import proofs.«170534_j62843961475630_1_alg».proof.Proof.Gen.ReferenceIdeal
import proofs.«170534_j62843961475630_1_alg».proof.Proof.Gen.ReferenceIdeal.Run
import proofs.«170534_j62843961475630_1_alg».proof.Proof.Gen.ReferenceIdeal.Read
import proofs.«170534_j62843961475630_1_alg».proof.Proof.Gen.Pre_finite_inputs
import proofs.«170534_j62843961475630_1_alg».proof.Proof.KernelValue
import proofs.«170534_j62843961475630_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's output array and the reference's result are both the
    logistic function of each row's score. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq (F := Ideal) _ _ _ _ _).trans ?_
  refine (Cert.ReferenceIdeal.RefValue.reference_eq _ _ _ _ _).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
